-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x256 : Shape := ⟨3, ![1, 8192, 256]⟩
abbrev S1x8192x8192 : Shape := ⟨3, ![1, 8192, 8192]⟩
abbrev S256x256 : Shape := ⟨2, ![256, 256]⟩
abbrev S_ : Shape := ⟨0, ![]⟩

class Facts : Prop where
  bcast_S_S1x8192x256 : S_.BroadcastsInDim S1x8192x256 (![] : Fin 0 → Fin S1x8192x256.rank)
  reducesTo_S1x8192x256_S_d0_1_2 : S1x8192x256.ReducesTo [0, 1, 2] S_
  h_S_ : 0 < S_.numel
  bcast_S_S1x8192x8192 : S_.BroadcastsInDim S1x8192x8192 (![] : Fin 0 → Fin S1x8192x8192.rank)
  reducesTo_S1x8192x8192_S_d0_1_2 : S1x8192x8192.ReducesTo [0, 1, 2] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S1x8192x256 .f32) (main_arg1 : FVec F S1x8192x8192 .f32) (main_arg2 : FVec F S256x256 .f32) : IVec S_ 1 :=
  let main_v0 : FVec F S1x8192x256 .f32 := Host.absf main_arg0
  let main_cst : FVec F S_ .f32 := constant S_ .f32 0x7F800000#32
  let main_v1 : FVec F S1x8192x256 .f32 := broadcastInDim S1x8192x256 ![] bcast_S_S1x8192x256 main_cst
  let main_v2 : IVec S1x8192x256 1 := cmpf .olt main_v0 main_v1
  let main_c : IVec S_ 1 := constantI S_ 1 1#1
  let main_v3 : IVec S_ 1 := (fun x v => Host.reduce IntOp.andi x v reducesTo_S1x8192x256_S_d0_1_2 h_S_) main_v2 main_c
  let main_v4 : FVec F S1x8192x8192 .f32 := Host.absf main_arg1
  let main_cst_0 : FVec F S_ .f32 := constant S_ .f32 0x7F800000#32
  let main_v5 : FVec F S1x8192x8192 .f32 := broadcastInDim S1x8192x8192 ![] bcast_S_S1x8192x8192 main_cst_0
  let main_v6 : IVec S1x8192x8192 1 := cmpf .olt main_v4 main_v5
  let main_c_1 : IVec S_ 1 := constantI S_ 1 1#1
  let main_v7 : IVec S_ 1 := (fun x v => Host.reduce IntOp.andi x v reducesTo_S1x8192x8192_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S1x8192x256 : Shape := ⟨3, ![1, 8192, 256]⟩
abbrev S1x8192x8192 : Shape := ⟨3, ![1, 8192, 8192]⟩
abbrev S256x256 : Shape := ⟨2, ![256, 256]⟩
abbrev S1x2048x1024 : Shape := ⟨3, ![1, 2048, 1024]⟩
abbrev S1x1024x256 : Shape := ⟨3, ![1, 1024, 256]⟩
abbrev S1x2048x256 : Shape := ⟨3, ![1, 2048, 256]⟩
abbrev S2048x256 : Shape := ⟨2, ![2048, 256]⟩
abbrev S2048x1024 : Shape := ⟨2, ![2048, 1024]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S1x8192x256, .f32⟩
  | .hbm, ⟨1, _⟩ => ⟨S1x8192x8192, .f32⟩
  | .hbm, ⟨2, _⟩ => ⟨S256x256, .f32⟩
  | .hbm, ⟨3, _⟩ => ⟨S1x8192x256, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024x256, .f32⟩
  | .local _ .vmem, ⟨3, _⟩ => ⟨S1x1024x256, .f32⟩
  | .local _ .vmem, ⟨4, _⟩ => ⟨S256x256, .f32⟩
  | .local _ .vmem, ⟨5, _⟩ => ⟨S1x2048x256, .f32⟩
  | .local _ .vmem, ⟨6, _⟩ => ⟨S1x2048x256, .f32⟩
  | .local _ .vmem, ⟨7, _⟩ => ⟨S2048x256, .f32⟩
  | _, _ => ⟨S1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x256_S256x256_0_0 : ∀ a, (![0, 0] : Fin 2 → Nat) a + S256x256.size a ≤ S256x256.size a
  h_S256x256 : 0 < S256x256.numel
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  dot_S2048x1024_S1024x256_S2048x256_1_0_0_1_n_n_wf : DotDims.WF S2048x1024 S1024x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S1x8192x8192.size a
  hwx0_0 : ∀ i : grid0.Coords, EltTy.bits .f32 = 32 ∨ (Rect.block (s := S1x8192x8192) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S1x8192x256.size a
  hwx0_1 : ∀ i : grid0.Coords, EltTy.bits .f32 = 32 ∨ (Rect.block (s := S1x8192x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S1x8192x256.size a
  hwx0_3 : ∀ i : grid0.Coords, EltTy.bits .f32 = 32 ∨ (Rect.block (s := S1x8192x256) S1x2048x256.size (cc0_transform_3 i) (hinb0_3 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg1) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x8192x256 : Shape := ⟨3, ![1, 8192, 256]⟩
abbrev S1x8192x8192 : Shape := ⟨3, ![1, 8192, 8192]⟩
abbrev S256x256 : Shape := ⟨2, ![256, 256]⟩
abbrev S8192x8192 : Shape := ⟨2, ![8192, 8192]⟩
abbrev S8192x256 : Shape := ⟨2, ![8192, 256]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1x8192x256, .f32⟩
  | .hbm, ⟨1, _⟩ => ⟨S1x8192x8192, .f32⟩
  | .hbm, ⟨2, _⟩ => ⟨S256x256, .f32⟩
  | .hbm, ⟨3, _⟩ => ⟨S8192x8192, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S1x8192x256, .f32⟩
  | .hbm, ⟨8, _⟩ => ⟨S_, .f32⟩
  | .hbm, ⟨9, _⟩ => ⟨S1x8192x256, .f32⟩
  | .hbm, ⟨10, _⟩ => ⟨S1x8192x256, .f32⟩
  | _, _ => ⟨S1x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  shapeCasts_S1x8192x8192_S8192x8192 : S1x8192x8192.ShapeCasts S8192x8192
  shapeCasts_S1x8192x256_S8192x256 : S1x8192x256.ShapeCasts S8192x256
  bcast_S8192x256_S1x8192x256_1_2 : S8192x256.BroadcastsInDim S1x8192x256 (![1, 2] : Fin 2 → Fin S1x8192x256.rank)
  bcast_S_S1x8192x256 : S_.BroadcastsInDim S1x8192x256 (![] : Fin 0 → Fin S1x8192x256.rank)
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.Spec.lean ====
/-
  The graph-convolution layer as ONE function of its three argument arrays, entry by entry on the extended reals:
  first every node's neighbour aggregate  agg[r, f] = Σ_k adj[r, k] · data[k, f]  over all 8192 nodes, then the dense
  projection  Σ_f agg[r, f] · w[f, q]  over the 256 features, then the rectifier  max(·, 0).
  Beside it the one law the tiled program needs: a sum over consecutive blocks of equal length is the sum over the
  whole range.  It uses only that addition is commutative and associative, so it holds on the extended reals with no
  finiteness assumption.
-/
import Idealize.ShloMosaic.Lib.ValueIdx
import Idealize.ShloMosaic.PureOps.Ideal.Laws

noncomputable section

namespace Cert.Gcn

open Idealize.ShloMosaic Idealize.ShloMosaic.ValueIdx

/-- The adjacency [1, 8192, 8192], the node features [1, 8192, 256] (also the result's shape), the weights [256, 256]. -/
abbrev SAdj : Shape := ⟨3, ![1, 8192, 8192]⟩
abbrev SDat : Shape := ⟨3, ![1, 8192, 256]⟩
abbrev SKer : Shape := ⟨2, ![256, 256]⟩

/-- Entry (r, k) of the adjacency.  Row and column are natural numbers taken modulo the extents, so that the reading is
    total; every use below is at numbers already in range. -/
def adjAt (A : FVec Ideal SAdj .f32) (r k : ℕ) : EReal :=
  A (ix3 (0 : Fin 1) (⟨r % 8192, Nat.mod_lt _ (by norm_num)⟩ : Fin 8192) (⟨k % 8192, Nat.mod_lt _ (by norm_num)⟩ : Fin 8192))

/-- Entry (k, f) of the node features. -/
def datAt (D : FVec Ideal SDat .f32) (k f : ℕ) : EReal :=
  D (ix3 (0 : Fin 1) (⟨k % 8192, Nat.mod_lt _ (by norm_num)⟩ : Fin 8192) (⟨f % 256, Nat.mod_lt _ (by norm_num)⟩ : Fin 256))

/-- Entry (f, q) of the weights. -/
def kerAt (W : FVec Ideal SKer .f32) (f q : ℕ) : EReal :=
  W (ix2 (⟨f % 256, Nat.mod_lt _ (by norm_num)⟩ : Fin 256) (⟨q % 256, Nat.mod_lt _ (by norm_num)⟩ : Fin 256))

/-- The neighbour aggregate of node r in feature f: the sum over ALL nodes k. -/
def agg (A : FVec Ideal SAdj .f32) (D : FVec Ideal SDat .f32) (r f : ℕ) : EReal :=
  ∑ k : Fin 8192, adjAt A r k * datAt D k f

/-- The part of that sum contributed by the s-th block of 1024 consecutive nodes. -/
def aggBlock (A : FVec Ideal SAdj .f32) (D : FVec Ideal SDat .f32) (r f s : ℕ) : EReal :=
  ∑ l : Fin 1024, adjAt A r (1024 * s + l) * datAt D (1024 * s + l) f

/-- The layer: rectified projection of the aggregate. -/
def layer (A : FVec Ideal SAdj .f32) (D : FVec Ideal SDat .f32) (W : FVec Ideal SKer .f32) : FVec Ideal SDat .f32 :=
  fun i => max (∑ f : Fin 256, agg A D (i 1) f * kerAt W f (i 2)) 0

/-- Summing block by block is summing the whole range: n blocks of length b tile the first b·n naturals. -/
theorem sum_blocks {β : Type*} [AddCommMonoid β] (g : ℕ → β) (b : ℕ) :
    ∀ n : ℕ, ∑ s ∈ Finset.range n, ∑ l ∈ Finset.range b, g (b * s + l) = ∑ k ∈ Finset.range (b * n), g k
  | 0 => by simp
  | n + 1 => by
    rw [Finset.sum_range_succ, sum_blocks g b n, Nat.mul_succ, Finset.sum_range_add]

/-- The eight block sums of a node's aggregate add up to the aggregate. -/
theorem agg_eq_blocks (A : FVec Ideal SAdj .f32) (D : FVec Ideal SDat .f32) (r f : ℕ) :
    ∑ s ∈ Finset.range 8, aggBlock A D r f s = agg A D r f := by
  unfold aggBlock agg
  have h := sum_blocks (fun k => adjAt A r k * datAt D k f) 1024 8
  simp only [Finset.sum_range] at h ⊢
  exact h

end Cert.Gcn

end
-- ==== Proof.RefValue.lean ====
/-
  The reference computes the layer.  Read one operation at a time: the two reshapes drop the leading unit axis, the
  first product is the neighbour aggregate over all 8192 nodes, the second the projection over the 256 features, the
  broadcast puts the unit axis back, and the rectifier is the maximum with zero.
-/
import proofs.«119451_j63788854281032_1_alg».proof.Proof.Gen.ReferenceIdeal.Read
import proofs.«119451_j63788854281032_1_alg».proof.Proof.Spec

noncomputable section

namespace Cert.ReferenceIdeal.RefValue

open Cert.ReferenceIdeal Cert.ReferenceIdeal.Read
open Idealize.ShloMosaic Idealize.ShloMosaic.TcCoe Idealize.ShloMosaic.ValueIdx

/-- The reference's result, entry by entry, is the layer of the adjacency `x1`, the features `x0` and the weights `x2`. -/
theorem ref_eq (x0 : (⟨S1x8192x256, .f32⟩ : BufTy).Contents (Elt Ideal)) (x1 : (⟨S1x8192x8192, .f32⟩ : BufTy).Contents (Elt Ideal))
    (x2 : (⟨S256x256, .f32⟩ : BufTy).Contents (Elt Ideal)) :
    val_main_v5 (F := Ideal) x0 x1 x2 = Cert.Gcn.layer x1 x0 x2 := by
  funext i
  have h1 : (i 1).val < 8192 := (i 1).isLt
  have h2 : (i 2).val < 256 := (i 2).isLt
  rw [val_main_v5_apply, val_main_v4_apply, val_main_v3_apply, val_main_call0_v0_apply, val_main_call0_cst_apply]
  unfold Cert.Gcn.layer
  refine congrArg₂ max ?_ Ideal.ofBits_zero_f32
  refine Finset.sum_congr rfl fun f _ => ?_
  have hf : f.val < 256 := f.isLt
  rw [val_main_v2_apply]
  congr 1
  · unfold Cert.Gcn.agg
    refine Finset.sum_congr rfl fun k _ => ?_
    have hk : k.val < 8192 := k.isLt
    rw [val_main_v0_apply, val_main_v1_apply]
    congr 1
    · unfold Cert.Gcn.adjAt
      refine congrArg x1 (funext fun a => Fin.ext ?_)
      match a with
      | ⟨0, _⟩ => rfl
      | ⟨1, _⟩ => show ((i 1).val * 8192 + k.val) / 8192 % 8192 = (i 1).val % 8192; omega
      | ⟨2, _⟩ => show ((i 1).val * 8192 + k.val) % 8192 = k.val % 8192; omega
    · unfold Cert.Gcn.datAt
      refine congrArg x0 (funext fun a => Fin.ext ?_)
      match a with
      | ⟨0, _⟩ => rfl
      | ⟨1, _⟩ => show (k.val * 256 + f.val) / 256 % 8192 = k.val % 8192; omega
      | ⟨2, _⟩ => show (k.val * 256 + f.val) % 256 = f.val % 256; omega
  · unfold Cert.Gcn.kerAt
    refine congrArg x2 (funext fun a => Fin.ext ?_)
    match a with
    | ⟨0, _⟩ => show f.val = f.val % 256; omega
    | ⟨1, _⟩ => show (i 2).val = (i 2).val % 256; omega

end Cert.ReferenceIdeal.RefValue

end
-- ==== Proof.Pieces.lean ====
/-
  What each of the body's three control cases leaves behind, as the body's own stored values.
  At the first step of a row tile (k = 0) the accumulator is zeroed and then updated, so it ends at the update of
  zero by the tile's first blocks; at every later step it ends at the update of what the step before left; and at the
  last step (k = 7) the output block is the epilogue of that freshly updated accumulator and the weights.  Each fact
  holds for any float interpretation: it only says which stored value the buffers end with.
-/
import proofs.«119451_j63788854281032_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First step of a row tile: the accumulator ends at the update of the zero block. -/
theorem scratch_A (c : Dev nD) (i : grid0.Coords) (arg2 : Memref sig .tc .vmem S1x2048x1024 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S1x2048x256 .f32) (harg5 : arg5.IsWhole) (arg6 : Memref sig .tc .vmem S2048x256 .f32) (harg6 : arg6.IsWhole) (hc0 : cond0_0 i) (hc1 : ¬cond0_1 i)
    (x0 : Vec F S1x2048x1024 .f32) (x1 : Vec F S1x1024x256 .f32) (x2 : Vec F S256x256 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S2048x256) hz2, View.readCov_unit_zero (S := S2048x256) _ hz2]
  simp only [View.readAt_eq_ld, harg2.read_unread, harg3.read_unread, View.ld_unit_zero (S := S1x2048x1024) hz3,
    View.ld_unit_zero (S := S1x1024x256) hz3]

/-- A middle step: the accumulator ends at the update of what it held. -/
theorem scratch_B (c : Dev nD) (i : grid0.Coords) (arg2 : Memref sig .tc .vmem S1x2048x1024 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S1x2048x256 .f32) (harg5 : arg5.IsWhole) (arg6 : Memref sig .tc .vmem S2048x256 .f32) (harg6 : arg6.IsWhole) (hc0 : ¬cond0_0 i) (hc1 : ¬cond0_1 i)
    (x0 : Vec F S1x2048x1024 .f32) (x1 : Vec F S1x1024x256 .f32) (x2 : Vec F S256x256 .f32) (xs0 : Vec F S2048x256 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg6.read_unread,
    View.ld_unit_zero (S := S1x2048x1024) hz3, View.ld_unit_zero (S := S1x1024x256) hz3, View.ld_unit_zero (S := S2048x256) hz2]

/-- The last step updates the accumulator the same way, -/
theorem scratch_C (c : Dev nD) (i : grid0.Coords) (arg2 : Memref sig .tc .vmem S1x2048x1024 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S1x2048x256 .f32) (harg5 : arg5.IsWhole) (arg6 : Memref sig .tc .vmem S2048x256 .f32) (harg6 : arg6.IsWhole) (hc0 : ¬cond0_0 i) (hc1 : cond0_1 i)
    (x0 : Vec F S1x2048x1024 .f32) (x1 : Vec F S1x1024x256 .f32) (x2 : Vec F S256x256 .f32) (xs0 : Vec F S2048x256 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg6.read_unread,
    View.ld_unit_zero (S := S1x2048x1024) hz3, View.ld_unit_zero (S := S1x1024x256) hz3, View.ld_unit_zero (S := S2048x256) hz2]

/-- and stores into the output block the epilogue of the updated accumulator and the weights. -/
theorem out_C (c : Dev nD) (i : grid0.Coords) (arg2 : Memref sig .tc .vmem S1x2048x1024 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S1x2048x256 .f32) (harg5 : arg5.IsWhole) (arg6 : Memref sig .tc .vmem S2048x256 .f32) (harg6 : arg6.IsWhole) (hc0 : ¬cond0_0 i) (hc1 : cond0_1 i)
    (x0 : Vec F S1x2048x1024 .f32) (x1 : Vec F S1x1024x256 .f32) (x2 : Vec F S256x256 .f32) (xs0 : Vec F S2048x256 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3]
  simp only [View.readCov_unit_zero (S := S2048x256) _ hz2, View.readAt_eq_ld, harg2.read_unread, harg3.read_unread,
    harg4.read_unread, harg6.read_unread, View.ld_unit_zero (S := S1x2048x1024) hz3, View.ld_unit_zero (S := S1x1024x256) hz3,
    View.ld_unit_zero (S := S2048x256) hz2, View.ld_unit_zero (S := S256x256) hz2]

end Cert.KernelIdeal.Pieces

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.Payload.lean ====
/-
  The kernel body's three stored values, read at one entry on the extended reals.
  The reset stores zero.  An accumulation step stores, at (p, q), what the accumulator held there plus the product of
  row p of the adjacency block with column q of the feature block, summed over the block's 1024 nodes.  The epilogue
  stores, at (0, p, q), the rectified product of row p of the accumulator with column q of the weights, summed over the
  256 features.  The narrowing of the operands to a shorter float format before each product is the identity on the
  extended reals, and the product unit started from a zero accumulator is the plain sum of products.
-/
import proofs.«119451_j63788854281032_1_alg».proof.Proof.Gen.KernelIdeal.Skeleton
import proofs.«119451_j63788854281032_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.TcCoe Idealize.ShloMosaic.ValueIdx

/-- Both products contract the left operand's columns with the right operand's rows and have no batch axis. -/
theorem plain_agg : Cert.Gcn.IsPlain dot_S2048x1024_S1024x256_S2048x256_1_0_0_1_n_n := ⟨rfl, rfl, rfl, rfl, rfl, rfl⟩
theorem plain_proj : Cert.Gcn.IsPlain dot_S2048x256_S256x256_S2048x256_1_0_0_1_n_n := ⟨rfl, rfl, rfl, rfl, rfl, rfl⟩

/-- The reset value is zero at every entry. -/
theorem reset_apply (j : S2048x256.Idx) : k0_pay1 (F := Ideal) j = 0 := by
  unfold k0_pay1
  rw [shapeCast_self]
  exact Ideal.ofBits_zero_f32

/-- One accumulation step at entry (p, q): the old value plus the block's contribution. -/
theorem step_apply (v3 : Vec Ideal S1x2048x1024 .f32) (v6 : Vec Ideal S1x1024x256 .f32) (v9 : Vec Ideal S2048x256 .f32)
    (p : Fin 2048) (q : Fin 256) :
    k0_pay2 (F := Ideal) v3 v6 v9 (ix2 p q) = v9 (ix2 p q) + ∑ l : Fin 1024, v3 (ix3 (0 : Fin 1) p l) * v6 (ix3 (0 : Fin 1) l q) := by
  unfold k0_pay2
  rw [shapeCast_self]
  refine (addf_apply _ _ _).trans ?_
  congr 1
  refine (Cert.Gcn.matmul_plain_apply _ plain_agg none _ _ p q).trans ?_
  refine Finset.sum_congr rfl fun l _ => ?_
  rw [truncf_apply, truncf_apply, shapeCast_1ab_ab_apply, shapeCast_1ab_ab_apply]

/-- The epilogue at entry (0, p, q): the rectified projection of the accumulator's row p. -/
theorem final_apply (v18 : Vec Ideal S2048x256 .f32) (v20 : Vec Ideal S256x256 .f32) (u : Fin 1) (p : Fin 2048) (q : Fin 256) :
    k0_pay3 (F := Ideal) v18 v20 (ix3 u p q) = max (∑ f : Fin 256, v18 (ix2 p f) * v20 (ix2 f q)) 0 := by
  unfold k0_pay3
  rw [shapeCast_ab_1ab_apply]
  refine (maximumf_apply _ _ _).trans ?_
  congr 1
  · refine (Cert.Gcn.matmul_plain_apply _ plain_proj none _ _ p q).trans ?_
    refine Finset.sum_congr rfl fun f _ => ?_
    rw [truncf_apply, truncf_apply]
  · exact Ideal.ofBits_zero_f32

end Cert.KernelIdeal.Pay

end
-- ==== Proof.Blocks.lean ====
/-
  The accumulator after each grid point, on the extended reals.
  Point t = 8·i + k of the grid works on row tile i (rows 2048·i … 2048·i + 2047 of the adjacency) and node block k
  (nodes 1024·k … 1024·k + 1023).  Its adjacency block holds adj[2048·i + p, 1024·k + l], its feature block
  data[1024·k + l, q], and the weights are staged whole.  One step therefore adds to entry (p, q) of the accumulator
  the k-th block sum of node (2048·i + p)'s aggregate in feature q; the accumulator is zeroed at k = 0; so after point
  t it holds the first (t mod 8) + 1 block sums of the row tile's aggregates.
-/
import proofs.«119451_j63788854281032_1_alg».proof.Proof.Gen.KernelIdeal.Value
import proofs.«119451_j63788854281032_1_alg».proof.Proof.Pieces
import proofs.«119451_j63788854281032_1_alg».proof.Proof.Payload
import proofs.«119451_j63788854281032_1_alg».proof.Proof.Spec
import Idealize.ShloMosaic.Lib.Pipeline.Value

set_option maxRecDepth 16384

noncomputable section

namespace Cert.KernelIdeal.Acc

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Gcn

variable (m : (ℓ : Loc nD τ sig) → Buf (Elt Ideal) ℓ)

/-- The three argument arrays on core c: adjacency, node features, weights. -/
abbrev adj (c : Dev nD) : FVec Ideal SAdj .f32 := m ((c : Thread nD τ).loc main_arg1)
abbrev dat (c : Dev nD) : FVec Ideal SDat .f32 := m ((c : Thread nD τ).loc main_arg0)
abbrev ker (c : Dev nD) : FVec Ideal SKer .f32 := m ((c : Thread nD τ).loc main_arg2)

/-- The blocks the three input windows hold at point t. -/
abbrev ablk (c : Dev nD) (t : Fin cfg0.N) : Vec Ideal S1x2048x1024 .f32 := iblk m c 0 t
abbrev dblk (c : Dev nD) (t : Fin cfg0.N) : Vec Ideal S1x1024x256 .f32 := iblk m c 1 t
abbrev wblk (c : Dev nD) (t : Fin cfg0.N) : Vec Ideal S256x256 .f32 := iblk m c 2 t

theorem lt32 (t : Fin cfg0.N) : t.val < 32 := lt_of_lt_of_eq t.isLt (show cfg0.N = 32 from N_0)

/-- The block indices of every window at point t = 8·i + k, decided over the grid: the adjacency's block is (0, i, k),
    the features' (0, k, 0), the weights' (0, 0), the output's (0, i, 0). -/
theorem idx_facts : ∀ t : Fin cfg0.N,
    win0_0.index t (0 : Fin 3) = 0 ∧ win0_0.index t (1 : Fin 3) = t.val / 8 ∧ win0_0.index t (2 : Fin 3) = t.val % 8
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = t.val / 8 ∧ win0_3.index t (2 : Fin 3) = 0 :=
  (by decide +kernel : ∀ t : Fin grid0.N, _)

/-- The adjacency block at point t, entry (0, p, l), is adj[2048·(t / 8) + p, 1024·(t mod 8) + l]. -/
theorem ablk_apply (c : Dev nD) (t : Fin cfg0.N) (p : Fin 2048) (l : Fin 1024) :
    ablk m c t (ix3 (0 : Fin 1) p l) = adjAt (adj m c) (2048 * (t.val / 8) + p.val) (1024 * (t.val % 8) + l.val) := by
  obtain ⟨e0, e1, e2, -⟩ := idx_facts t
  have ht := lt32 t
  show iblk m c 0 t (ix3 (0 : Fin 1) p l) = _
  unfold iblk
  rw [View.read_apply]
  show V m c main_arg1 _ = _
  unfold adjAt
  refine congrArg (m ((c : Thread nD τ).loc main_arg1)) (funext fun a => Fin.ext ?_)
  match a with
  | ⟨0, _⟩ => show win0_0.index t (0 : Fin 3) * 1 + 1 * 0 = 0; omega
  | ⟨1, _⟩ => show win0_0.index t (1 : Fin 3) * 2048 + 1 * p.val = (2048 * (t.val / 8) + p.val) % 8192; omega
  | ⟨2, _⟩ => show win0_0.index t (2 : Fin 3) * 1024 + 1 * l.val = (1024 * (t.val % 8) + l.val) % 8192; omega

/-- The feature block at point t, entry (0, l, q), is data[1024·(t mod 8) + l, q]. -/
theorem dblk_apply (c : Dev nD) (t : Fin cfg0.N) (l : Fin 1024) (q : Fin 256) :
    dblk m c t (ix3 (0 : Fin 1) l q) = datAt (dat m c) (1024 * (t.val % 8) + l.val) q.val := by
  obtain ⟨-, -, -, e0, e1, e2, -⟩ := idx_facts t
  have ht := lt32 t
  show iblk m c 1 t (ix3 (0 : Fin 1) l q) = _
  unfold iblk
  rw [View.read_apply]
  show V m c main_arg0 _ = _
  unfold datAt
  refine congrArg (m ((c : Thread nD τ).loc main_arg0)) (funext fun a => Fin.ext ?_)
  match a with
  | ⟨0, _⟩ => show win0_1.index t (0 : Fin 3) * 1 + 1 * 0 = 0; omega
  | ⟨1, _⟩ => show win0_1.index t (1 : Fin 3) * 1024 + 1 * l.val = (1024 * (t.val % 8) + l.val) % 8192; omega
  | ⟨2, _⟩ => show win0_1.index t (2 : Fin 3) * 256 + 1 * q.val = q.val % 256; omega

/-- The weights' block at any point, entry (f, q), is w[f, q]. -/
theorem wblk_apply (c : Dev nD) (t : Fin cfg0.N) (f q : Fin 256) :
    wblk m c t (ix2 f q) = kerAt (ker m c) f.val q.val := by
  obtain ⟨-, -, -, -, -, -, e0, e1, -⟩ := idx_facts t
  show iblk m c 2 t (ix2 f q) = _
  unfold iblk
  rw [View.read_apply]
  show V m c main_arg2 _ = _
  unfold kerAt
  refine congrArg (m ((c : Thread nD τ).loc main_arg2)) (funext fun a => Fin.ext ?_)
  match a with
  | ⟨0, _⟩ => show win0_2.index t (0 : Fin 2) * 256 + 1 * f.val = f.val % 256; omega
  | ⟨1, _⟩ => show win0_2.index t (1 : Fin 2) * 256 + 1 * q.val = q.val % 256; omega

/-- What point n adds to entry j of the accumulator: block sum (n mod 8) of the aggregate of node 2048·(n / 8) + j₀
    in feature j₁. -/
def addend (c : Dev nD) (n : ℕ) (j : S2048x256.Idx) : EReal :=
  aggBlock (adj m c) (dat m c) (2048 * (n / 8) + (j 0).val) (j 1).val (n % 8)

/-- One update at point t adds that point's addend to whatever the accumulator held. -/
theorem update_apply (c : Dev nD) (t : Fin cfg0.N) (acc : Vec Ideal S2048x256 .f32) (j : S2048x256.Idx) :
    k0_pay2 (F := Ideal) (ablk m c t) (dblk m c t) acc j = acc j + addend m c t.val j := by
  obtain ⟨p, q, rfl⟩ : ∃ (p : Fin 2048) (q : Fin 256), j = ix2 p q := ⟨j 0, j 1, eq_ix2 j⟩
  rw [Cert.KernelIdeal.Pay.step_apply]
  congr 1
  unfold addend aggBlock
  refine Finset.sum_congr rfl fun l _ => ?_
  rw [ablk_apply, dblk_apply]

end Cert.KernelIdeal.Acc

end
-- ==== Proof.Fold.lean ====
/-
  The accumulator as a sum.  The scratch after point t is the fold of its row tile's run from the reset at point
  8·(t / 8): zero, then one update per point.  Every update adds its point's block sum, so after point t the
  accumulator holds the block sums 0 … t mod 8 of the row tile's aggregates, and after the tile's last point
  (t mod 8 = 7) all eight, which add up to the aggregate over all 8192 nodes.
-/
import proofs.«119451_j63788854281032_1_alg».proof.Proof.Blocks

set_option maxRecDepth 16384

noncomputable section

namespace Cert.KernelIdeal.Acc

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Gcn

variable (m : (ℓ : Loc nD τ sig) → Buf (Elt Ideal) ℓ)

/-- At the first point of a row tile the accumulator ends at the update of the zero block, whatever it held before. -/
theorem scratch_first (c : Dev nD) (n : ℕ) (h : n < cfg0.N) (h0 : n % 8 = 0) (acc : Vec Ideal S2048x256 .f32) :
    scAt0_0 m c n h acc = k0_pay2 (F := Ideal) (ablk m c (⟨n, h⟩ : Fin cfg0.N)) (dblk m c (⟨n, h⟩ : Fin cfg0.N)) (k0_pay1 (F := Ideal)) := by
  have h1 : ¬n % 8 = 7 := by omega
  unfold scAt0_0
  rw [dif_pos h0, dif_neg h1]
  exact Cert.KernelIdeal.Pieces.scratch_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _)
    ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N))

/-- At every later point of the tile it ends at the update of what the point before left. -/
theorem scratch_later (c : Dev nD) (n : ℕ) (h : n < cfg0.N) (h0 : ¬n % 8 = 0) (acc : Vec Ideal S2048x256 .f32) :
    scAt0_0 m c n h acc = k0_pay2 (F := Ideal) (ablk m c (⟨n, h⟩ : Fin cfg0.N)) (dblk m c (⟨n, h⟩ : Fin cfg0.N)) acc := by
  unfold scAt0_0
  rw [dif_neg h0]
  by_cases h1 : n % 8 = 7
  · rw [dif_pos h1]
    exact Cert.KernelIdeal.Pieces.scratch_C (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _)
      (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) acc
  · rw [dif_neg h1]
    exact Cert.KernelIdeal.Pieces.scratch_B (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _)
      (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) acc

/-- The accumulator after point t: zero plus the addends of the tile's points up to t. -/
theorem acc_after (c : Dev nD) (t : Fin cfg0.N) (j : S2048x256.Idx) :
    (outsAt0 m c t.val t.isLt).2 j = 0 + ∑ s ∈ Finset.range (t.val % 8 + 1), addend m c (8 * (t.val / 8) + s) j := by
  have ht := lt32 t
  rw [soutsAt0_0_eq m c t]
  refine Pipeline.accAt_add_apply (ι := S2048x256.Idx) (β := EReal)
    (fun n h => scAt0_0 m c n h (VS0_0.read (Elt Ideal) VS0_0.junk)) (scAt0_0 m c) (fun _ => 0) (addend m c)
    (8 * (t.val / 8)) 7 ?_ ?_ (t.val % 8) (by omega) _ j
  · intro h i
    show scAt0_0 m c (8 * (t.val / 8)) h _ i = 0 + addend m c (8 * (t.val / 8)) i
    rw [scratch_first m c _ h (by omega), update_apply m c ⟨_, h⟩, Cert.KernelIdeal.Pay.reset_apply]
  · intro n h acc i hlt hle
    show scAt0_0 m c n h acc i = acc i + addend m c n i
    rw [scratch_later m c n h (by omega), update_apply m c ⟨n, h⟩]

/-- After the last point of a row tile the accumulator holds the tile's aggregates over all 8192 nodes. -/
theorem acc_full (c : Dev nD) (t : Fin cfg0.N) (h7 : t.val % 8 = 7) (p : Fin 2048) (f : Fin 256) :
    (outsAt0 m c t.val t.isLt).2 (ix2 p f) = agg (adj m c) (dat m c) (2048 * (t.val / 8) + p.val) f.val := by
  rw [acc_after, h7, zero_add, ← agg_eq_blocks]
  refine Finset.sum_congr rfl fun s hs => ?_
  have hs8 : s < 8 := Finset.mem_range.mp hs
  unfold addend
  rw [show (8 * (t.val / 8) + s) / 8 = t.val / 8 by omega, show (8 * (t.val / 8) + s) % 8 = s by omega]

end Cert.KernelIdeal.Acc

end
-- ==== Proof.KernelValue.lean ====
/-
  The kernel's result array.  Only the last point of a row tile (t mod 8 = 7) writes its output block back: rows
  2048·(t / 8) … 2048·(t / 8) + 2047 of the result.  What it stores at (0, p, q) is the rectified projection of row p of
  the accumulator, which by then holds the full aggregates of the tile's nodes: exactly the layer's entry at node
  2048·(t / 8) + p, column q.  The four flushing points' blocks cover the result array, so after the run it holds the
  layer of the three argument arrays.
-/
import proofs.«119451_j63788854281032_1_alg».proof.Proof.Fold

set_option maxRecDepth 16384

noncomputable section

namespace Cert.KernelIdeal.Acc

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Gcn

variable (m : (ℓ : Loc nD τ sig) → Buf (Elt Ideal) ℓ) (ρ : Dev nD → PrngReg)

/-- What the result array ends holding: the layer of the adjacency, the features and the weights. -/
abbrev result (c : Dev nD) : Buf (Elt Ideal) ((c : Thread nD τ).loc main_v0) := layer (adj m c) (dat m c) (ker m c)

/-- At a tile's last point the accumulator is the update of what the point before left. -/
theorem scratch_last (c : Dev nD) (t : Fin cfg0.N) (h0 : ¬t.val % 8 = 0) (h7 : t.val % 8 = 7) :
    (outsAt0 m c t.val t.isLt).2
      = k0_pay2 (F := Ideal) (ablk m c t) (dblk m c t) (outsAt0 m c (t.val - 1) (Nat.lt_of_le_of_lt (Nat.sub_le _ _) t.isLt)).2 := by
  rw [outsAt0_C m c t h0 h7]
  dsimp only
  exact Cert.KernelIdeal.Pieces.scratch_C (F := Ideal) c (grid0.coords t) (ms0_0 t) (hs0_0 t) (ms0_1 t) (hs0_1 t) (ms0_2 t) (hs0_2 t) (ms0_3 t) (hs0_3 t) scM0_0 (Memref.isWhole_whole _)
    (fun hh => h0 ((hcond0_0 t).mp hh)) ((hcond0_1 t).mpr h7) (iblk m c 0 t) (iblk m c 1 t) (iblk m c 2 t)
    (outsAt0 m c (t.val - 1) (Nat.lt_of_le_of_lt (Nat.sub_le _ _) t.isLt)).2

/-- The epilogue of the full accumulator and the weights, at (u, p, q): the layer's entry at node 2048·(t / 8) + p. -/
theorem stored_apply (c : Dev nD) (t : Fin cfg0.N) (h7 : t.val % 8 = 7) (u : Fin 1) (p : Fin 2048) (q : Fin 256) :
    k0_pay3 (F := Ideal) (outsAt0 m c t.val t.isLt).2 (wblk m c t) (ix3 u p q)
      = max (∑ f : Fin 256, agg (adj m c) (dat m c) (2048 * (t.val / 8) + p.val) f.val * kerAt (ker m c) f.val q.val) 0 := by
  rw [Cert.KernelIdeal.Pay.final_apply]
  congr 1
  refine Finset.sum_congr rfl fun f _ => ?_
  rw [acc_full m c t h7, wblk_apply]

/-- What a flushing point writes back is its block of the layer. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have h0 : ¬t.val % 8 = 0 := by omega
  have ht := lt32 t
  obtain ⟨-, -, -, -, -, -, -, -, e0, e1, e2⟩ := idx_facts t
  rw [flushed3_C m c t h0 h7, Cert.KernelIdeal.Pieces.out_C (F := Ideal) c (grid0.coords t) (ms0_0 t) (hs0_0 t) (ms0_1 t) (hs0_1 t) (ms0_2 t) (hs0_2 t) (ms0_3 t) (hs0_3 t) scM0_0 (Memref.isWhole_whole _)
    (fun hh => h0 ((hcond0_0 t).mp hh)) ((hcond0_1 t).mpr h7) (iblk m c 0 t) (iblk m c 1 t) (iblk m c 2 t)
    (outsAt0 m c (t.val - 1) (Nat.lt_of_le_of_lt (Nat.sub_le _ _) t.isLt)).2]
  funext j
  obtain ⟨u, p, q, rfl⟩ : ∃ (u : Fin 1) (p : Fin 2048) (q : Fin 256), j = ix3 u p q := ⟨j 0, j 1, j 2, eq_ix3 j⟩
  show k0_pay3 (F := Ideal) (k0_pay2 (F := Ideal) (ablk m c t) (dblk m c t) (outsAt0 m c (t.val - 1) (Nat.lt_of_le_of_lt (Nat.sub_le _ _) t.isLt)).2) (wblk m c t) (ix3 u p q)
    = max (∑ f : Fin 256, agg (adj m c) (dat m c) ((((cfg0.win 3).blk t).view.emb (ix3 u p q)) 1).val f.val
        * kerAt (ker m c) f.val ((((cfg0.win 3).blk t).view.emb (ix3 u p q)) 2).val) 0
  have c1 : ((((cfg0.win 3).blk t).view.emb (ix3 u p q)) 1).val = 2048 * (t.val / 8) + p.val := by
    show win0_3.index t (1 : Fin 3) * 2048 + 1 * p.val = _; omega
  have c2 : ((((cfg0.win 3).blk t).view.emb (ix3 u p q)) 2).val = q.val := by
    show win0_3.index t (2 : Fin 3) * 256 + 1 * q.val = _; omega
  rw [c1, c2, ← scratch_last m c t h0 h7]
  exact stored_apply m c t h7 u p q

/-- Every entry of the result lies in the block of its row tile's last point. -/
theorem cover (i : S1x8192x256.Idx) : ∃ t : Fin cfg0.N, (cfg0.win 3).flush t = true ∧ i ∈ ((cfg0.win 3).blk t).view.set := by
  have h0 : (i 0).val < 1 := (i 0).isLt
  have h1 : (i 1).val < 8192 := (i 1).isLt
  have h2 : (i 2).val < 256 := (i 2).isLt
  have hN : cfg0.N = 32 := N_0
  obtain ⟨t, tv⟩ : ∃ t : Fin cfg0.N, t.val = 8 * ((i 1).val / 2048) + 7 := ⟨⟨8 * ((i 1).val / 2048) + 7, by rw [hN]; omega⟩, rfl⟩
  obtain ⟨-, -, -, -, -, -, -, -, e0, e1, e2⟩ := idx_facts t
  refine ⟨t, (flush0_3 t).mpr (by omega), ?_⟩
  show i ∈ ((View.whole main_v0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 256 ≤ (i 2).val ∧ (i 2).val < win0_3.index t (2 : Fin 3) * 256 + 256; omega

/-- The result array after the run. -/
theorem final (c : Dev nD) : (dats m 0 c).arrAt 3 cfg0.N = result m c :=
  (dats m 0 c).arrAt_eq_of_cover 3 (result m c) (flushed_eq m c) cover

/-- The kernel's run: it terminates with the result array at the layer of the arguments, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Acc

end
-- ==== Proof.lean ====
/-
  A graph-convolution layer, relu((adj · data) · w), computed by a tiled kernel and by a plain reference.
  The kernel walks a 4 × 8 grid: row tile i of 2048 nodes, node block k of 1024 nodes.  It zeroes an accumulator at
  k = 0, adds the product of the adjacency block (i, k) with the feature block k at every k, and at k = 7 projects the
  accumulator with the weights, rectifies, and stores the row tile of the result.  The reference forms the two products
  whole.  On the extended reals the narrowing of operands before each product is the identity and both product units
  are plain sums of products, so the only difference is that the kernel sums the 8192 nodes in eight blocks of 1024:
  a regrouping of one sum, which needs commutativity and associativity of addition only.  Hence no finiteness of
  the inputs is used.  Both results are the same function `Cert.Gcn.layer` of the three argument arrays.
  The three frames are the generated ones (the reference's is its generated run with the result dropped); the
  idealization rewrote no operation, so that conjunct is trivial.
-/
import proofs.«119451_j63788854281032_1_alg».proof.Defs
import proofs.«119451_j63788854281032_1_alg».proof.Proof.Gen.Kernel
import proofs.«119451_j63788854281032_1_alg».proof.Proof.Gen.Kernel.Skeleton
import proofs.«119451_j63788854281032_1_alg».proof.Proof.Gen.Kernel.Launch
import proofs.«119451_j63788854281032_1_alg».proof.Proof.Gen.Kernel.Points
import proofs.«119451_j63788854281032_1_alg».proof.Proof.Gen.Kernel.Frame
import proofs.«119451_j63788854281032_1_alg».proof.Proof.Gen.KernelIdeal
import proofs.«119451_j63788854281032_1_alg».proof.Proof.Gen.KernelIdeal.Skeleton
import proofs.«119451_j63788854281032_1_alg».proof.Proof.Gen.KernelIdeal.Launch
import proofs.«119451_j63788854281032_1_alg».proof.Proof.Gen.KernelIdeal.Points
import proofs.«119451_j63788854281032_1_alg».proof.Proof.Gen.KernelIdeal.Frame
import proofs.«119451_j63788854281032_1_alg».proof.Proof.Gen.ReferenceIdeal
import proofs.«119451_j63788854281032_1_alg».proof.Proof.Gen.Pre_finite_inputs
import proofs.«119451_j63788854281032_1_alg».proof.Proof.Gen.KernelIdeal.Value
import proofs.«119451_j63788854281032_1_alg».proof.Proof.Gen.ReferenceIdeal.Run
import proofs.«119451_j63788854281032_1_alg».proof.Proof.Gen.ReferenceIdeal.Read
import proofs.«119451_j63788854281032_1_alg».proof.Proof.RefValue
import proofs.«119451_j63788854281032_1_alg».proof.Proof.KernelValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the three arguments both programs end with the result array at the layer of those
    arguments: the kernel by its accumulated run, the reference by its run read one operation at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
